-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S8x4096 .f32) (main_arg4 : FVec F S4096x8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S16384x4096 : Shape := ⟨2, ![16384, 4096]⟩
abbrev S512x1024 : Shape := ⟨2, ![512, 1024]⟩
abbrev S1024x1024 : Shape := ⟨2, ![1024, 1024]⟩
abbrev S1024 : Shape := ⟨1, ![1024]⟩
abbrev S8x1024 : Shape := ⟨2, ![8, 1024]⟩
abbrev S1024x8 : Shape := ⟨2, ![1024, 8]⟩
abbrev S512x8 : Shape := ⟨2, ![512, 8]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S4096x8, .f32⟩
  | .hbm, ⟨5, _⟩ => ⟨S16384x4096, .f32⟩
  | .hbm, ⟨6, _⟩ => ⟨S16384x4096, .f32⟩
  | .hbm, ⟨7, _⟩ => ⟨S4x4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S8x1024, .f32⟩
  | .local _ .vmem, ⟨7, _⟩ => ⟨S8x1024, .f32⟩
  | .local _ .vmem, ⟨8, _⟩ => ⟨S1024x8, .f32⟩
  | .local _ .vmem, ⟨9, _⟩ => ⟨S1024x8, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x8, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S8x1024_S8x1024_0_0 : ∀ a, (![0, 0] : Fin 2 → Nat) a + S8x1024.size a ≤ S8x1024.size a
  h_S8x1024 : 0 < S8x1024.numel
  inb_S1024x8_S1024x8_0_0 : ∀ a, (![0, 0] : Fin 2 → Nat) a + S1024x8.size a ≤ S1024x8.size a
  h_S1024x8 : 0 < S1024x8.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S16384x4096_S4x4096x4096 : S16384x4096.ShapeCasts S4x4096x4096
  dot_S512x1024_S1024x1024_S512x1024_1_1_0_0_n_n_wf : DotDims.WF S512x1024 S1024x1024 S512x1024 [1] [1] [0] [0] [] []
  dot_S512x1024_S8x1024_S512x8_1_1_0_0_n_n_wf : DotDims.WF S512x1024 S8x1024 S512x8 [1] [1] [0] [0] [] []
  dot_S512x8_S1024x8_S512x1024_1_1_0_0_n_n_wf : DotDims.WF S512x8 S1024x8 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .f32 = 32 ∨ (Rect.block (s := S16384x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x4096.size a
  hwx0_3 : ∀ i : grid0.Coords, EltTy.bits .f32 = 32 ∨ (Rect.block (s := S8x4096) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x8.size a ≤ S4096x8.size a
  hwx0_4 : ∀ i : grid0.Coords, EltTy.bits .f32 = 32 ∨ (Rect.block (s := S4096x8) S1024x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x4096.size a
  hwx0_5 : ∀ i : grid0.Coords, EltTy.bits .f32 = 32 ∨ (Rect.block (s := S16384x4096) S512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S8x1024_S512x8_1_1_0_0_n_n : DotDims S512x1024 S8x1024 S512x8 where
  lhsContracting := [1]
  rhsContracting := [1]
  lhsNonContracting := [0]
  rhsNonContracting := [0]
  lhsBatch := []
  rhsBatch := []
  wf := dot_S512x1024_S8x1024_S512x8_1_1_0_0_n_n_wf
def dot_S512x8_S1024x8_S512x1024_1_1_0_0_n_n : DotDims S512x8 S1024x8 S512x1024 where
  lhsContracting := [1]
  rhsContracting := [1]
  lhsNonContracting := [0]
  rhsNonContracting := [0]
  lhsBatch := []
  rhsBatch := []
  wf := dot_S512x8_S1024x8_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S1x1x4096 : Shape := ⟨3, ![1, 1, 4096]⟩
abbrev S4x4096x8 : Shape := ⟨3, ![4, 4096, 8]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S4096x8, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x8, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S8x4096_S4x4096x8_2_1_01_0_n_n_wf : DotDims.WF S4x4096x4096 S8x4096 S4x4096x8 [2] [1] [0, 1] [0] [] []
  dot_S4x4096x8_S4096x8_S4x4096x4096_2_1_01_0_n_n_wf : DotDims.WF S4x4096x8 S4096x8 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S8x4096_S4x4096x8_2_1_01_0_n_n : DotDims S4x4096x4096 S8x4096 S4x4096x8 where
  lhsContracting := [2]
  rhsContracting := [1]
  lhsNonContracting := [0, 1]
  rhsNonContracting := [0]
  lhsBatch := []
  rhsBatch := []
  wf := dot_S4x4096x4096_S8x4096_S4x4096x8_2_1_01_0_n_n_wf
def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf

class Facts : Prop extends Facts₀ where

variable [Facts]
-- ==== Proof.Spec.lean ====
/-
  The mathematics of a linear layer with a rank-8 correction, stated once over plain index types and extended reals.

  Arguments: an activation array `x` of shape [4, 4096, 4096] (read as 16384 rows of 4096 features), a weight matrix
  `W` [4096 out, 4096 in], a bias `b` [4096], a down projection `A` [8, 4096] and an up projection `L` [4096, 8].
  The result at row `r`, output feature `o` is

      (∑ᵢ x r i · W o i  +  b o)  +  (∑ᵨ (∑ᵢ x r i · A ρ i) · L o ρ) · 1 .

  One program computes it exactly in this arrangement (`layer3`). The other walks the 4096 input features in four
  tiles of 1024, keeping two running sums (one for the dense product, one for the projection onto the 8 directions),
  each started at zero, and only after the fourth tile forms `(dense + lowRank · 1) + b o` (`tiled2`), over the
  activations flattened to [16384, 4096]. The two agree because addition of extended reals is associative and
  commutative: no distributivity and no cancellation is used, so no finiteness of the inputs is needed.
-/
import Idealize.ShloMosaic.PureOps.Ideal
import Idealize.ShloMosaic.Lib.ValueIdx

noncomputable section

open scoped BigOperators

namespace Cert.LoraSpec

open Idealize.ShloMosaic Idealize.ShloMosaic.ValueIdx

abbrev SX3 : Shape := ⟨3, ![4, 4096, 4096]⟩
abbrev SX2 : Shape := ⟨2, ![16384, 4096]⟩
abbrev SW : Shape := ⟨2, ![4096, 4096]⟩
abbrev SB : Shape := ⟨1, ![4096]⟩
abbrev SA : Shape := ⟨2, ![8, 4096]⟩
abbrev SL : Shape := ⟨2, ![4096, 8]⟩

/-- The scale `alpha / rank = 8 / 8` as both programs spell it: the f32 word of `1.0`, never evaluated. -/
abbrev unitScale : EReal := Ideal.ofBits .f32 0x3F800000#32

/-! ## The plain arrangement (rank 3) -/

/-- The result in the plain arrangement, at batch `i 0`, position `i 1`, output feature `i 2`. -/
def layer3 (x : SX3.Idx → EReal) (W : SW.Idx → EReal) (b : SB.Idx → EReal) (A : SA.Idx → EReal) (L : SL.Idx → EReal) :
    SX3.Idx → EReal := fun i =>
  ((∑ k : Fin 4096, x (ix3 (i 0) (i 1) k) * W (ix2 (i 2) k)) + b (ix1 (i 2)))
    + (∑ ρ : Fin 8, (∑ k : Fin 4096, x (ix3 (i 0) (i 1) k) * A (ix2 ρ k)) * L (ix2 (i 2) ρ)) * unitScale

/-! ## The tiled arrangement (rank 2) -/

/-- Feature `k` of tile `kt`: tiles are consecutive runs of 1024 features. -/
abbrev feat (kt : Fin 4) (k : Fin 1024) : Fin 4096 := ⟨1024 * kt.val + k.val, by have := kt.isLt; have := k.isLt; omega⟩

/-- A running sum over the four tiles, started at zero: after tile 0 it is `0 + T 0`, then each tile is added on the right. -/
def runSum (T : Fin 4 → EReal) : (n : ℕ) → n < 4 → EReal
  | 0, h => 0 + T ⟨0, h⟩
  | n + 1, h => runSum T n (Nat.lt_of_succ_lt h) + T ⟨n + 1, h⟩

/-- One tile's share of the dense product at row `r`, output feature `o`. -/
def denseTile (X : SX2.Idx → EReal) (W : SW.Idx → EReal) (r : Fin 16384) (o : Fin 4096) (kt : Fin 4) : EReal :=
  ∑ k : Fin 1024, X (ix2 r (feat kt k)) * W (ix2 o (feat kt k))

/-- One tile's share of the projection of row `r` onto direction `ρ`. -/
def projTile (X : SX2.Idx → EReal) (A : SA.Idx → EReal) (r : Fin 16384) (ρ : Fin 8) (kt : Fin 4) : EReal :=
  ∑ k : Fin 1024, X (ix2 r (feat kt k)) * A (ix2 ρ (feat kt k))

/-- The result in the tiled arrangement: both running sums after the fourth tile, the low-rank term formed from the
    second, the bias added last. -/
def tiled2 (X : SX2.Idx → EReal) (W : SW.Idx → EReal) (b : SB.Idx → EReal) (A : SA.Idx → EReal) (L : SL.Idx → EReal) :
    SX2.Idx → EReal := fun j =>
  (runSum (denseTile X W (j 0) (j 1)) 3 (by decide)
      + (∑ ρ : Fin 8, runSum (projTile X A (j 0) ρ) 3 (by decide) * L (ix2 (j 1) ρ)) * unitScale)
    + b (ix1 (j 1))

/-! ## Where a grid point works

The grid is walked with the input tile fastest: point `4 g + kt` handles input tile `kt` of output block `g`, and
output block `g` is block row `g / 4` (512 rows each) and block column `g % 4` (1024 output features each). -/

/-- Row `p` of output block `g`, as a row of the flattened activations. -/
abbrev rowG (g : ℕ) (hg : g < 128) (p : Fin 512) : Fin 16384 := ⟨512 * (g / 4) + p.val, by have := p.isLt; omega⟩
/-- Column `q` of output block `g`, as an output feature. -/
abbrev colG (g : ℕ) (q : Fin 1024) : Fin 4096 := ⟨1024 * (g % 4) + q.val, by have := q.isLt; omega⟩

/-- A running sum does not depend on how its tile count is spelled. -/
theorem runSum_congr (T : Fin 4 → EReal) {n n' : ℕ} (e : n = n') (h : n < 4) (h' : n' < 4) : runSum T n h = runSum T n' h' := by
  subst e; rfl

/-- The running sum after the first tile. -/
theorem runSum_zero (T : Fin 4 → EReal) (h : 0 < 4) : runSum T 0 h = 0 + T ⟨0, h⟩ := rfl
/-- The running sum after one more tile. -/
theorem runSum_succ (T : Fin 4 → EReal) (n : ℕ) (h : n + 1 < 4) :
    runSum T (n + 1) h = runSum T n (Nat.lt_of_succ_lt h) + T ⟨n + 1, h⟩ := rfl

/-! ## The two arrangements agree -/

/-- After the fourth tile the running sum is the sum of the four tiles. -/
theorem runSum_last (T : Fin 4 → EReal) : runSum T 3 (by decide) = ∑ kt : Fin 4, T kt := by
  simp only [runSum, Fin.sum_univ_four, zero_add]
  rfl

/-- The 4096 features are the four tiles of 1024. -/
def tileEquiv : Fin 4 × Fin 1024 ≃ Fin 4096 where
  toFun p := feat p.1 p.2
  invFun i := (⟨i.val / 1024, by have := i.isLt; omega⟩, ⟨i.val % 1024, Nat.mod_lt _ (by decide)⟩)
  left_inv := by
    rintro ⟨a, b⟩
    have ha := a.isLt; have hb := b.isLt
    refine Prod.ext (Fin.ext ?_) (Fin.ext ?_)
    · show (1024 * a.val + b.val) / 1024 = a.val; omega
    · show (1024 * a.val + b.val) % 1024 = b.val; omega
  right_inv := by
    intro i
    refine Fin.ext ?_
    show 1024 * (i.val / 1024) + i.val % 1024 = i.val; omega

/-- A sum over all features is the sum over the tiles of the sums inside each tile. -/
theorem sum_features (f : Fin 4096 → EReal) : ∑ i : Fin 4096, f i = ∑ kt : Fin 4, ∑ k : Fin 1024, f (feat kt k) := by
  rw [← Equiv.sum_comp tileEquiv f, Fintype.sum_prod_type]
  rfl

/-- The dense running sum after the fourth tile is the full contraction. -/
theorem dense_full (X : SX2.Idx → EReal) (W : SW.Idx → EReal) (r : Fin 16384) (o : Fin 4096) :
    runSum (denseTile X W r o) 3 (by decide) = ∑ i : Fin 4096, X (ix2 r i) * W (ix2 o i) := by
  rw [runSum_last, sum_features]
  rfl

/-- The projection running sum after the fourth tile is the full contraction. -/
theorem proj_full (X : SX2.Idx → EReal) (A : SA.Idx → EReal) (r : Fin 16384) (ρ : Fin 8) :
    runSum (projTile X A r ρ) 3 (by decide) = ∑ i : Fin 4096, X (ix2 r i) * A (ix2 ρ i) := by
  rw [runSum_last, sum_features]
  rfl

/-- Row `r` of the flattened activations is batch `r / 4096`, position `r % 4096`. -/
abbrev rowOf (bt : Fin 4) (s : Fin 4096) : Fin 16384 := ⟨bt.val * 4096 + s.val, by have := bt.isLt; have := s.isLt; omega⟩

/-- THE AGREEMENT: when `X` is `x` with its two leading axes flattened, the tiled arrangement at row
    `(bt, s)`, output feature `o` is the plain arrangement at `(bt, s, o)`. -/
theorem tiled2_eq_layer3 (x : SX3.Idx → EReal) (X : SX2.Idx → EReal) (W : SW.Idx → EReal) (b : SB.Idx → EReal)
    (A : SA.Idx → EReal) (L : SL.Idx → EReal)
    (hX : ∀ (bt : Fin 4) (s : Fin 4096) (k : Fin 4096), X (ix2 (rowOf bt s) k) = x (ix3 bt s k))
    (bt : Fin 4) (s : Fin 4096) (o : Fin 4096) :
    tiled2 X W b A L (ix2 (rowOf bt s) o) = layer3 x W b A L (ix3 bt s o) := by
  unfold tiled2 layer3
  show (runSum (denseTile X W (rowOf bt s) o) 3 _
      + (∑ ρ : Fin 8, runSum (projTile X A (rowOf bt s) ρ) 3 _ * L (ix2 o ρ)) * unitScale) + b (ix1 o)
    = ((∑ k : Fin 4096, x (ix3 bt s k) * W (ix2 o k)) + b (ix1 o))
      + (∑ ρ : Fin 8, (∑ k : Fin 4096, x (ix3 bt s k) * A (ix2 ρ k)) * L (ix2 o ρ)) * unitScale
  rw [dense_full]
  simp only [proj_full, hX]
  exact add_right_comm _ _ _

end Cert.LoraSpec

end
-- ==== Proof.Flatten.lean ====
/-
  Flattening and unflattening. The kernel program reshapes the activations [4, 4096, 4096] to [16384, 4096] before
  its grid and reshapes the [16384, 4096] result back afterwards; a reshape keeps the row-major position, so row
  `bt · 4096 + s` of the flat array is batch `bt`, position `s`. Read through both reshapes, the tiled arrangement is the
  plain one.
-/
import proofs.«151045_j44152263803472_1_alg».proof.Proof.Spec
import Idealize.ShloMosaic.Lib.Pipeline.Value

noncomputable section

namespace Cert.LoraSpec

open Idealize.ShloMosaic Idealize.ShloMosaic.ValueIdx

/-- The tiled arrangement over the flattened activations, unflattened, is the plain arrangement. -/
theorem unflatten_tiled2 (x : SX3.Idx → EReal) (W : SW.Idx → EReal) (b : SB.Idx → EReal) (A : SA.Idx → EReal)
    (L : SL.Idx → EReal) (h1 : SX3.ShapeCasts SX2) (h2 : SX2.ShapeCasts SX3) :
    shapeCast SX3 (tiled2 (shapeCast SX2 x h1) W b A L) h2 = layer3 x W b A L := by
  funext i
  obtain ⟨bt, s, o, rfl⟩ : ∃ (bt : Fin 4) (s : Fin 4096) (o : Fin 4096), i = ix3 bt s o := ⟨i 0, i 1, i 2, eq_ix3 i⟩
  rw [shapeCast_apply _ h2 (ix3 bt s o) (ix2 (rowOf bt s) o) (by
    rw [Shape.rowMajor_val_two, Shape.rowMajor_val_three]
    rfl)]
  exact tiled2_eq_layer3 x _ W b A L (fun bt s k => shapeCast_apply x h1 (ix2 (rowOf bt s) k) (ix3 bt s k) (by
    rw [Shape.rowMajor_val_two, Shape.rowMajor_val_three]
    rfl)) bt s o

end Cert.LoraSpec

end
-- ==== Proof.PointValue.lean ====
/-
  What one grid point leaves behind, as values. The body keeps two running sums in scratch memory — `acc`
  (512×1024: the dense product's partial sums) and `xa` (512×8: the projection's) — and, at the last input tile, writes
  the output block. At a point of the first input tile both scratches are first set to zero and then updated; at every
  other point they are updated from what the point before left. In every case the update is
  `acc ← acc + x · Wᵀ` and `xa ← xa + x · Aᵀ` on the point's blocks, and at the last tile the output block is
  `(acc + (xa · Lᵀ) · 1) + b` of the UPDATED scratches. The lemmas below say exactly this of the contents the frame
  run found, for any float instance.
-/
import proofs.«151045_j44152263803472_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.PointValue

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- First tile, dense scratch: zero, then the update. -/
theorem accA (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S8x1024 .f32) (h6 : a6.IsWhole) (a7 : Memref sig .tc .vmem S1024x8 .f32) (h7 : a7.IsWhole) (a8 : Memref sig .tc .vmem S512x1024 .f32) (h8 : a8.IsWhole) (a9 : Memref sig .tc .vmem S512x1024 .f32) (h9 : a9.IsWhole) (a10 : Memref sig .tc .vmem S512x8 .f32) (h10 : a10.IsWhole) (hc0 : cond0_0 i) (hc1 : ¬cond0_1 i) (x0 : Vec F S512x1024 .f32) (x1 : Vec F S1024x1024 .f32) (x2 : Vec F S1024 .f32) (x3 : Vec F S8x1024 .f32) (x4 : Vec F S1024x8 .f32) :
    sout0_A_0 c i a3 h3 a4 h4 a5 h5 a6 h6 a7 h7 a8 h8 a9 h9 a10 h10 hc0 hc1 x0 x1 x2 x3 x4 = k0_pay4 x0 x1 (k0_pay1 (F := F)) := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S512x1024) hz2, View.readCov_unit_zero (S := S512x1024) _ hz2]
  simp only [View.readAt_eq_ld, h3.read_unread, h4.read_unread, View.ld_unit_zero (S := S512x1024) hz2, View.ld_unit_zero (S := S1024x1024) hz2]

/-- First tile, projection scratch: zero, then the update. -/
theorem xaA (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S8x1024 .f32) (h6 : a6.IsWhole) (a7 : Memref sig .tc .vmem S1024x8 .f32) (h7 : a7.IsWhole) (a8 : Memref sig .tc .vmem S512x1024 .f32) (h8 : a8.IsWhole) (a9 : Memref sig .tc .vmem S512x1024 .f32) (h9 : a9.IsWhole) (a10 : Memref sig .tc .vmem S512x8 .f32) (h10 : a10.IsWhole) (hc0 : cond0_0 i) (hc1 : ¬cond0_1 i) (x0 : Vec F S512x1024 .f32) (x1 : Vec F S1024x1024 .f32) (x2 : Vec F S1024 .f32) (x3 : Vec F S8x1024 .f32) (x4 : Vec F S1024x8 .f32) :
    sout0_A_1 c i a3 h3 a4 h4 a5 h5 a6 h6 a7 h7 a8 h8 a9 h9 a10 h10 hc0 hc1 x0 x1 x2 x3 x4 = k0_pay5 x0 x3 (k0_pay2 (F := F)) := by
  unfold sout0_A_1
  rw [View.read_writes_eq_canon _ _ _ (scover0_A_1 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S512x8) hz2, View.readCov_unit_zero (S := S512x8) _ hz2]
  simp only [View.readAt_eq_ld, h3.read_unread, h6.read_unread, View.ld_unit_zero (S := S512x1024) hz2, View.ld_unit_zero (S := S8x1024) hz2]

/-- A middle tile, dense scratch: the update of what the point before left. -/
theorem accB (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S8x1024 .f32) (h6 : a6.IsWhole) (a7 : Memref sig .tc .vmem S1024x8 .f32) (h7 : a7.IsWhole) (a8 : Memref sig .tc .vmem S512x1024 .f32) (h8 : a8.IsWhole) (a9 : Memref sig .tc .vmem S512x1024 .f32) (h9 : a9.IsWhole) (a10 : Memref sig .tc .vmem S512x8 .f32) (h10 : a10.IsWhole) (hc0 : ¬cond0_0 i) (hc1 : ¬cond0_1 i) (x0 : Vec F S512x1024 .f32) (x1 : Vec F S1024x1024 .f32) (x2 : Vec F S1024 .f32) (x3 : Vec F S8x1024 .f32) (x4 : Vec F S1024x8 .f32) (xs0 : Vec F S512x1024 .f32) (xs1 : Vec F S512x8 .f32) :
    sout0_B_0 c i a3 h3 a4 h4 a5 h5 a6 h6 a7 h7 a8 h8 a9 h9 a10 h10 hc0 hc1 x0 x1 x2 x3 x4 xs0 xs1 = k0_pay4 x0 x1 xs0 := by
  unfold sout0_B_0
  rw [View.read_writes_eq_canon _ _ _ (scover0_B_0 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz2]
  simp only [View.readAt_eq_ld, h3.read_unread, h4.read_unread, h9.read_unread, View.ld_unit_zero (S := S512x1024) hz2, View.ld_unit_zero (S := S1024x1024) hz2]

/-- A middle tile, projection scratch. -/
theorem xaB (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S8x1024 .f32) (h6 : a6.IsWhole) (a7 : Memref sig .tc .vmem S1024x8 .f32) (h7 : a7.IsWhole) (a8 : Memref sig .tc .vmem S512x1024 .f32) (h8 : a8.IsWhole) (a9 : Memref sig .tc .vmem S512x1024 .f32) (h9 : a9.IsWhole) (a10 : Memref sig .tc .vmem S512x8 .f32) (h10 : a10.IsWhole) (hc0 : ¬cond0_0 i) (hc1 : ¬cond0_1 i) (x0 : Vec F S512x1024 .f32) (x1 : Vec F S1024x1024 .f32) (x2 : Vec F S1024 .f32) (x3 : Vec F S8x1024 .f32) (x4 : Vec F S1024x8 .f32) (xs0 : Vec F S512x1024 .f32) (xs1 : Vec F S512x8 .f32) :
    sout0_B_1 c i a3 h3 a4 h4 a5 h5 a6 h6 a7 h7 a8 h8 a9 h9 a10 h10 hc0 hc1 x0 x1 x2 x3 x4 xs0 xs1 = k0_pay5 x0 x3 xs1 := by
  unfold sout0_B_1
  rw [View.read_writes_eq_canon _ _ _ (scover0_B_1 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz2]
  simp only [View.readAt_eq_ld, h3.read_unread, h6.read_unread, h10.read_unread, View.ld_unit_zero (S := S512x1024) hz2, View.ld_unit_zero (S := S8x1024) hz2, View.ld_unit_zero (S := S512x8) hz2]

/-- The last tile, dense scratch. -/
theorem accC (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S8x1024 .f32) (h6 : a6.IsWhole) (a7 : Memref sig .tc .vmem S1024x8 .f32) (h7 : a7.IsWhole) (a8 : Memref sig .tc .vmem S512x1024 .f32) (h8 : a8.IsWhole) (a9 : Memref sig .tc .vmem S512x1024 .f32) (h9 : a9.IsWhole) (a10 : Memref sig .tc .vmem S512x8 .f32) (h10 : a10.IsWhole) (hc0 : ¬cond0_0 i) (hc1 : cond0_1 i) (x0 : Vec F S512x1024 .f32) (x1 : Vec F S1024x1024 .f32) (x2 : Vec F S1024 .f32) (x3 : Vec F S8x1024 .f32) (x4 : Vec F S1024x8 .f32) (xs0 : Vec F S512x1024 .f32) (xs1 : Vec F S512x8 .f32) :
    sout0_C_0 c i a3 h3 a4 h4 a5 h5 a6 h6 a7 h7 a8 h8 a9 h9 a10 h10 hc0 hc1 x0 x1 x2 x3 x4 xs0 xs1 = k0_pay4 x0 x1 xs0 := by
  unfold sout0_C_0
  rw [View.read_writes_eq_canon _ _ _ (scover0_C_0 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz2]
  simp only [View.readAt_eq_ld, h3.read_unread, h4.read_unread, h9.read_unread, View.ld_unit_zero (S := S512x1024) hz2, View.ld_unit_zero (S := S1024x1024) hz2]

/-- The last tile, projection scratch. -/
theorem xaC (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S8x1024 .f32) (h6 : a6.IsWhole) (a7 : Memref sig .tc .vmem S1024x8 .f32) (h7 : a7.IsWhole) (a8 : Memref sig .tc .vmem S512x1024 .f32) (h8 : a8.IsWhole) (a9 : Memref sig .tc .vmem S512x1024 .f32) (h9 : a9.IsWhole) (a10 : Memref sig .tc .vmem S512x8 .f32) (h10 : a10.IsWhole) (hc0 : ¬cond0_0 i) (hc1 : cond0_1 i) (x0 : Vec F S512x1024 .f32) (x1 : Vec F S1024x1024 .f32) (x2 : Vec F S1024 .f32) (x3 : Vec F S8x1024 .f32) (x4 : Vec F S1024x8 .f32) (xs0 : Vec F S512x1024 .f32) (xs1 : Vec F S512x8 .f32) :
    sout0_C_1 c i a3 h3 a4 h4 a5 h5 a6 h6 a7 h7 a8 h8 a9 h9 a10 h10 hc0 hc1 x0 x1 x2 x3 x4 xs0 xs1 = k0_pay5 x0 x3 xs1 := by
  unfold sout0_C_1
  rw [View.read_writes_eq_canon _ _ _ (scover0_C_1 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz2]
  simp only [View.readAt_eq_ld, h3.read_unread, h6.read_unread, h10.read_unread, View.ld_unit_zero (S := S512x1024) hz2, View.ld_unit_zero (S := S8x1024) hz2, View.ld_unit_zero (S := S512x8) hz2]

/-- The last tile, the output block: formed from both scratches AFTER their update. -/
theorem outC (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S8x1024 .f32) (h6 : a6.IsWhole) (a7 : Memref sig .tc .vmem S1024x8 .f32) (h7 : a7.IsWhole) (a8 : Memref sig .tc .vmem S512x1024 .f32) (h8 : a8.IsWhole) (a9 : Memref sig .tc .vmem S512x1024 .f32) (h9 : a9.IsWhole) (a10 : Memref sig .tc .vmem S512x8 .f32) (h10 : a10.IsWhole) (hc0 : ¬cond0_0 i) (hc1 : cond0_1 i) (x0 : Vec F S512x1024 .f32) (x1 : Vec F S1024x1024 .f32) (x2 : Vec F S1024 .f32) (x3 : Vec F S8x1024 .f32) (x4 : Vec F S1024x8 .f32) (xs0 : Vec F S512x1024 .f32) (xs1 : Vec F S512x8 .f32) :
    out0_C_5 c i a3 h3 a4 h4 a5 h5 a6 h6 a7 h7 a8 h8 a9 h9 a10 h10 hc0 hc1 x0 x1 x2 x3 x4 xs0 xs1 = k0_pay6 x4 (k0_pay5 x0 x3 xs1) x2 (k0_pay4 x0 x1 xs0) := by
  unfold out0_C_5
  rw [View.read_writes_eq_canon _ _ _ (cover0_C_5 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz2]
  simp only [View.readAt_eq_ld, h3.read_unread, h4.read_unread, h5.read_unread, h6.read_unread, h7.read_unread, h9.read_unread, h10.read_unread,
    View.ld_unit_zero (S := S512x1024) hz2, View.ld_unit_zero (S := S1024x1024) hz2, View.ld_unit_zero (S := S8x1024) hz2,
    View.ld_unit_zero (S := S512x8) hz2, View.ld_unit_zero (S := S1024x8) hz2, View.ld_unit_zero (S := S1024) hz1,
    View.readCov_unit_zero (S := S512x1024) _ hz2, View.readCov_unit_zero (S := S512x8) _ hz2]

end Cert.KernelIdeal.PointValue

end
-- ==== Proof.PayloadAt.lean ====
/-
  The body's arithmetic at one entry, over the extended reals. Every matrix product in the body contracts the SECOND
  axis of both operands (`x · Wᵀ`, `x · Aᵀ`, `xa · Lᵀ`), into a zero accumulator; narrowing to bf16 is the identity on
  exact values. So, entry by entry:

    the dense update      at (p, q):  acc (p, q) + ∑ₖ x (p, k) · w (q, k)        (k over the 1024 features of the tile)
    the projection update at (p, ρ):  xa (p, ρ) + ∑ₖ x (p, k) · a (ρ, k)
    the output            at (p, q):  (acc (p, q) + (∑ᵨ xa (p, ρ) · l (q, ρ)) · 1) + b q
    the two resets: zero everywhere.
-/
import proofs.«151045_j44152263803472_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem

namespace Cert.KernelIdeal.PayloadAt

open Cert.KernelIdeal Cert.KernelIdeal.Gen Idealize.ShloMosaic.ValueIdx

/-! ## The three products -/

theorem dense_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem dense_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem dense_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem dense_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into a zero accumulator, at row `p`, column `q`: the sum over the contracted axis of the left operand's
    row `p` times the right operand's ROW `q` (both operands are contracted along their second axis). -/
theorem dense_apply (l : FVec Ideal S512x1024 .bf16) (r : FVec Ideal S1024x1024 .bf16) (p : Fin 512) (q : Fin 1024) :
    matmul dot_S512x1024_S1024x1024_S512x1024_1_1_0_0_n_n none l r (constant S512x1024 .f32 0x00000000#32) (ix2 p q)
      = ∑ k : Fin 1024, l (ix2 p k) * r (ix2 q k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact dense_lhs_0 _ _
    | ⟨1, _⟩ => exact (dense_lhs_1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact dense_rhs_0 _ _
    | ⟨1, _⟩ => exact (dense_rhs_1 _ _).trans hk)
  rw [el, er]

theorem proj_lhs_0 (i : S512x8.Idx) (q : dot_S512x1024_S8x1024_S512x8_1_1_0_0_n_n.contr.Idx) :
    (dot_S512x1024_S8x1024_S512x8_1_1_0_0_n_n.lhsIdx i q 0).val = (i 0).val := by
  unfold DotDims.lhsIdx
  rw [dif_neg (show ¬(0 : Fin S512x1024.rank) ∈ dot_S512x1024_S8x1024_S512x8_1_1_0_0_n_n.lhsBatch by decide), dif_pos (show (0 : Fin S512x1024.rank) ∈ dot_S512x1024_S8x1024_S512x8_1_1_0_0_n_n.lhsNonContracting by decide)]
  rfl
theorem proj_lhs_1 (i : S512x8.Idx) (q : dot_S512x1024_S8x1024_S512x8_1_1_0_0_n_n.contr.Idx) :
    (dot_S512x1024_S8x1024_S512x8_1_1_0_0_n_n.lhsIdx i q 1).val = (q ⟨0, by decide⟩).val :=
  dot_S512x1024_S8x1024_S512x8_1_1_0_0_n_n.lhsIdx_val_of_single rfl i q
theorem proj_rhs_0 (i : S512x8.Idx) (q : dot_S512x1024_S8x1024_S512x8_1_1_0_0_n_n.contr.Idx) :
    (dot_S512x1024_S8x1024_S512x8_1_1_0_0_n_n.rhsIdx i q 0).val = (i 1).val := by
  unfold DotDims.rhsIdx
  rw [dif_neg (show ¬(0 : Fin S8x1024.rank) ∈ dot_S512x1024_S8x1024_S512x8_1_1_0_0_n_n.rhsBatch by decide), dif_pos (show (0 : Fin S8x1024.rank) ∈ dot_S512x1024_S8x1024_S512x8_1_1_0_0_n_n.rhsNonContracting by decide)]
  rfl
theorem proj_rhs_1 (i : S512x8.Idx) (q : dot_S512x1024_S8x1024_S512x8_1_1_0_0_n_n.contr.Idx) :
    (dot_S512x1024_S8x1024_S512x8_1_1_0_0_n_n.rhsIdx i q 1).val = (q ⟨0, by decide⟩).val :=
  dot_S512x1024_S8x1024_S512x8_1_1_0_0_n_n.rhsIdx_val_of_single rfl i q

/-- The product into a zero accumulator, at row `p`, column `q`: the sum over the contracted axis of the left operand's
    row `p` times the right operand's ROW `q` (both operands are contracted along their second axis). -/
theorem proj_apply (l : FVec Ideal S512x1024 .bf16) (r : FVec Ideal S8x1024 .bf16) (p : Fin 512) (q : Fin 8) :
    matmul dot_S512x1024_S8x1024_S512x8_1_1_0_0_n_n none l r (constant S512x8 .f32 0x00000000#32) (ix2 p q)
      = ∑ k : Fin 1024, l (ix2 p k) * r (ix2 q k) := by
  simp only [matmul]
  rw [Ideal.matmul_constant_zero_apply, ← Equiv.sum_comp (contrEquiv1 dot_S512x1024_S8x1024_S512x8_1_1_0_0_n_n 1024 rfl rfl).symm]
  refine Finset.sum_congr rfl fun k _ => ?_
  have hk := contrEquiv1_symm_val dot_S512x1024_S8x1024_S512x8_1_1_0_0_n_n 1024 rfl rfl k
  have el : dot_S512x1024_S8x1024_S512x8_1_1_0_0_n_n.lhsIdx (ix2 p q) ((contrEquiv1 dot_S512x1024_S8x1024_S512x8_1_1_0_0_n_n 1024 rfl rfl).symm k) = ix2 p k := funext fun a => Fin.ext (by
    match a with
    | ⟨0, _⟩ => exact proj_lhs_0 _ _
    | ⟨1, _⟩ => exact (proj_lhs_1 _ _).trans hk)
  have er : dot_S512x1024_S8x1024_S512x8_1_1_0_0_n_n.rhsIdx (ix2 p q) ((contrEquiv1 dot_S512x1024_S8x1024_S512x8_1_1_0_0_n_n 1024 rfl rfl).symm k) = ix2 q k := funext fun a => Fin.ext (by
    match a with
    | ⟨0, _⟩ => exact proj_rhs_0 _ _
    | ⟨1, _⟩ => exact (proj_rhs_1 _ _).trans hk)
  rw [el, er]

theorem up_lhs_0 (i : S512x1024.Idx) (q : dot_S512x8_S1024x8_S512x1024_1_1_0_0_n_n.contr.Idx) :
    (dot_S512x8_S1024x8_S512x1024_1_1_0_0_n_n.lhsIdx i q 0).val = (i 0).val := by
  unfold DotDims.lhsIdx
  rw [dif_neg (show ¬(0 : Fin S512x8.rank) ∈ dot_S512x8_S1024x8_S512x1024_1_1_0_0_n_n.lhsBatch by decide), dif_pos (show (0 : Fin S512x8.rank) ∈ dot_S512x8_S1024x8_S512x1024_1_1_0_0_n_n.lhsNonContracting by decide)]
  rfl
theorem up_lhs_1 (i : S512x1024.Idx) (q : dot_S512x8_S1024x8_S512x1024_1_1_0_0_n_n.contr.Idx) :
    (dot_S512x8_S1024x8_S512x1024_1_1_0_0_n_n.lhsIdx i q 1).val = (q ⟨0, by decide⟩).val :=
  dot_S512x8_S1024x8_S512x1024_1_1_0_0_n_n.lhsIdx_val_of_single rfl i q
theorem up_rhs_0 (i : S512x1024.Idx) (q : dot_S512x8_S1024x8_S512x1024_1_1_0_0_n_n.contr.Idx) :
    (dot_S512x8_S1024x8_S512x1024_1_1_0_0_n_n.rhsIdx i q 0).val = (i 1).val := by
  unfold DotDims.rhsIdx
  rw [dif_neg (show ¬(0 : Fin S1024x8.rank) ∈ dot_S512x8_S1024x8_S512x1024_1_1_0_0_n_n.rhsBatch by decide), dif_pos (show (0 : Fin S1024x8.rank) ∈ dot_S512x8_S1024x8_S512x1024_1_1_0_0_n_n.rhsNonContracting by decide)]
  rfl
theorem up_rhs_1 (i : S512x1024.Idx) (q : dot_S512x8_S1024x8_S512x1024_1_1_0_0_n_n.contr.Idx) :
    (dot_S512x8_S1024x8_S512x1024_1_1_0_0_n_n.rhsIdx i q 1).val = (q ⟨0, by decide⟩).val :=
  dot_S512x8_S1024x8_S512x1024_1_1_0_0_n_n.rhsIdx_val_of_single rfl i q

/-- The product into a zero accumulator, at row `p`, column `q`: the sum over the contracted axis of the left operand's
    row `p` times the right operand's ROW `q` (both operands are contracted along their second axis). -/
theorem up_apply (l : FVec Ideal S512x8 .bf16) (r : FVec Ideal S1024x8 .bf16) (p : Fin 512) (q : Fin 1024) :
    matmul dot_S512x8_S1024x8_S512x1024_1_1_0_0_n_n none l r (constant S512x1024 .f32 0x00000000#32) (ix2 p q)
      = ∑ k : Fin 8, l (ix2 p k) * r (ix2 q k) := by
  simp only [matmul]
  rw [Ideal.matmul_constant_zero_apply, ← Equiv.sum_comp (contrEquiv1 dot_S512x8_S1024x8_S512x1024_1_1_0_0_n_n 8 rfl rfl).symm]
  refine Finset.sum_congr rfl fun k _ => ?_
  have hk := contrEquiv1_symm_val dot_S512x8_S1024x8_S512x1024_1_1_0_0_n_n 8 rfl rfl k
  have el : dot_S512x8_S1024x8_S512x1024_1_1_0_0_n_n.lhsIdx (ix2 p q) ((contrEquiv1 dot_S512x8_S1024x8_S512x1024_1_1_0_0_n_n 8 rfl rfl).symm k) = ix2 p k := funext fun a => Fin.ext (by
    match a with
    | ⟨0, _⟩ => exact up_lhs_0 _ _
    | ⟨1, _⟩ => exact (up_lhs_1 _ _).trans hk)
  have er : dot_S512x8_S1024x8_S512x1024_1_1_0_0_n_n.rhsIdx (ix2 p q) ((contrEquiv1 dot_S512x8_S1024x8_S512x1024_1_1_0_0_n_n 8 rfl rfl).symm k) = ix2 q k := funext fun a => Fin.ext (by
    match a with
    | ⟨0, _⟩ => exact up_rhs_0 _ _
    | ⟨1, _⟩ => exact (up_rhs_1 _ _).trans hk)
  rw [el, er]

/-! ## The payloads at an entry -/

/-- The dense scratch's reset stores zero. -/
theorem zeroAcc_apply (j : S512x1024.Idx) : k0_pay1 (F := Ideal) j = 0 := by
  unfold k0_pay1
  rw [shapeCast_self]
  exact Ideal.ofBits_zero_f32

/-- The projection scratch's reset stores zero. -/
theorem zeroXa_apply (j : S512x8.Idx) : k0_pay2 (F := Ideal) j = 0 := by
  unfold k0_pay2
  rw [shapeCast_self]
  exact Ideal.ofBits_zero_f32

/-- The dense update at `(p, q)`. -/
theorem denseUpdate_apply (x : Vec Ideal S512x1024 .f32) (w : Vec Ideal S1024x1024 .f32) (acc : Vec Ideal S512x1024 .f32)
    (p : Fin 512) (q : Fin 1024) :
    k0_pay4 (F := Ideal) x w acc (ix2 p q) = acc (ix2 p q) + ∑ k : Fin 1024, x (ix2 p k) * w (ix2 q k) := by
  unfold k0_pay4 k0_pay3
  dsimp only
  rw [shapeCast_self, shapeCast_self]
  refine (addf_apply _ _ _).trans ?_
  refine congrArg (acc (ix2 p q) + ·) ?_
  exact dense_apply _ _ p q

/-- The projection update at `(p, ρ)`. -/
theorem projUpdate_apply (x : Vec Ideal S512x1024 .f32) (a : Vec Ideal S8x1024 .f32) (xa : Vec Ideal S512x8 .f32)
    (p : Fin 512) (ρ : Fin 8) :
    k0_pay5 (F := Ideal) x a xa (ix2 p ρ) = xa (ix2 p ρ) + ∑ k : Fin 1024, x (ix2 p k) * a (ix2 ρ k) := by
  unfold k0_pay5 k0_pay3
  dsimp only
  rw [shapeCast_self, shapeCast_self]
  refine (addf_apply _ _ _).trans ?_
  refine congrArg (xa (ix2 p ρ) + ·) ?_
  exact proj_apply _ _ p ρ

/-- The output block at `(p, q)`. -/
theorem output_apply (l : Vec Ideal S1024x8 .f32) (xa : Vec Ideal S512x8 .f32) (b : Vec Ideal S1024 .f32) (acc : Vec Ideal S512x1024 .f32)
    (p : Fin 512) (q : Fin 1024) :
    k0_pay6 (F := Ideal) l xa b acc (ix2 p q)
      = (acc (ix2 p q) + (∑ ρ : Fin 8, xa (ix2 p ρ) * l (ix2 q ρ)) * Ideal.ofBits .f32 0x3F800000#32) + b (ix1 q) := by
  have eb : broadcastTo S512x1024 (shapeCast S1x1024 b shapeCasts_S1024_S1x1024) broadcasts_S1x1024_S512x1024 (ix2 p q) = b (ix1 q) := by
    refine (broadcastTo_apply _ broadcasts_S1x1024_S512x1024 (ix2 p q) (ix2 (0 : Fin 1) q) (fun a => ?_)).trans ?_
    · match a with
      | ⟨0, _⟩ => show 0 = if (1 : Nat) = 1 then 0 else p.val; rw [if_pos rfl]
      | ⟨1, _⟩ => show q.val = if (1024 : Nat) = 1 then 0 else q.val; rw [if_neg (by decide)]
    · exact shapeCast_a_1a_apply b shapeCasts_S1024_S1x1024 (0 : Fin 1) q
  unfold k0_pay6
  show ((acc (ix2 p q) : EReal) + (matmul (F := Ideal) dot_S512x8_S1024x8_S512x1024_1_1_0_0_n_n none
        (truncf .bf16 (xa : FVec Ideal S512x8 .f32) bitsLt_bf16_f32) (truncf .bf16 (l : FVec Ideal S1024x8 .f32) bitsLt_bf16_f32)
        (constant S512x1024 .f32 0x00000000#32) (ix2 p q) : EReal) * Ideal.ofBits .f32 0x3F800000#32)
    + (broadcastTo S512x1024 (shapeCast S1x1024 b shapeCasts_S1024_S1x1024) broadcasts_S1x1024_S512x1024 (ix2 p q) : EReal) = _
  rw [up_apply, eb]
  rfl

end Cert.KernelIdeal.PayloadAt

end
-- ==== Proof.BlockAt.lean ====
/-
  What each window's block holds at a grid point, entry by entry, in terms of the arrays as the region finds them.
  Point `4 g + kt` (output block `g`, input tile `kt`) sees

    activations  block (g / 4, kt): rows 512 (g / 4) + p, features 1024 kt + k
    weights      block (g % 4, kt): output features 1024 (g % 4) + q, input features 1024 kt + k
    bias         block g % 4
    down proj.   block (0, kt):     all 8 directions, features 1024 kt + k
    up proj.     block (g % 4, 0):  output features 1024 (g % 4) + q, all 8 directions

  and writes output block (g / 4, g % 4). A block's coordinate is always index × block size + the coordinate inside.
-/
import proofs.«151045_j44152263803472_1_alg».proof.Proof.Gen.KernelIdeal.Frame
import proofs.«151045_j44152263803472_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.BlockAt

open Cert.KernelIdeal Cert.KernelIdeal.Gen Cert.LoraSpec Idealize.ShloMosaic.ValueIdx

variable {F : FTy → Type} [FloatOps F]
variable (m : (ℓ : Loc nD τ sig) → Buf (Elt F) ℓ)

/-! ## Names of literal type for the blocks and the arrays -/

abbrev xblk (c : Dev nD) (t : Fin cfg0.N) : Vec F S512x1024 .f32 := iblk m c 0 t
abbrev wblk (c : Dev nD) (t : Fin cfg0.N) : Vec F S1024x1024 .f32 := iblk m c 1 t
abbrev bblk (c : Dev nD) (t : Fin cfg0.N) : Vec F S1024 .f32 := iblk m c 2 t
abbrev ablk (c : Dev nD) (t : Fin cfg0.N) : Vec F S8x1024 .f32 := iblk m c 3 t
abbrev lblk (c : Dev nD) (t : Fin cfg0.N) : Vec F S1024x8 .f32 := iblk m c 4 t
abbrev Xarr (c : Dev nD) : Vec F S16384x4096 .f32 := V m c main_v0
abbrev Warr (c : Dev nD) : Vec F S4096x4096 .f32 := V m c main_arg1
abbrev Barr (c : Dev nD) : Vec F S4096 .f32 := V m c main_arg2
abbrev Aarr (c : Dev nD) : Vec F S8x4096 .f32 := V m c main_arg3
abbrev Larr (c : Dev nD) : Vec F S4096x8 .f32 := V m c main_arg4

/-! ## The index maps over the grid, decided once -/

theorem idx_x : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idx_w : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem idx_b : ∀ t : Fin cfg0.N, win0_2.index t (0 : Fin 1) = t.val / 4 % 4 :=
  (by decide +kernel : ∀ t : Fin grid0.N, win0_2.index t (0 : Fin 1) = t.val / 4 % 4)
theorem idx_a : ∀ t : Fin cfg0.N, win0_3.index t (0 : Fin 2) = 0 ∧ win0_3.index t (1 : Fin 2) = t.val % 4 :=
  (by decide +kernel : ∀ t : Fin grid0.N, win0_3.index t (0 : Fin 2) = 0 ∧ win0_3.index t (1 : Fin 2) = t.val % 4)
theorem idx_l : ∀ t : Fin cfg0.N, win0_4.index t (0 : Fin 2) = t.val / 4 % 4 ∧ win0_4.index t (1 : Fin 2) = 0 :=
  (by decide +kernel : ∀ t : Fin grid0.N, win0_4.index t (0 : Fin 2) = t.val / 4 % 4 ∧ win0_4.index t (1 : Fin 2) = 0)
theorem idx_o : ∀ t : Fin cfg0.N, win0_5.index t (0 : Fin 2) = t.val / 16 ∧ win0_5.index t (1 : Fin 2) = t.val / 4 % 4 :=
  (by decide +kernel : ∀ t : Fin grid0.N, win0_5.index t (0 : Fin 2) = t.val / 16 ∧ win0_5.index t (1 : Fin 2) = t.val / 4 % 4)

/-! ## The blocks, entry by entry -/

theorem xblk_apply (c : Dev nD) (t : Fin cfg0.N) (g kt : ℕ) (hg : g < 128) (hk : kt < 4) (ht : t.val = 4 * g + kt)
    (p : Fin 512) (k : Fin 1024) :
    xblk m c t (ix2 p k) = Xarr m c (ix2 (rowG g hg p) (feat ⟨kt, hk⟩ k)) := by
  unfold xblk Xarr iblk
  rw [View.read_apply]
  show V m c main_v0 _ = V m c main_v0 _
  congr 1
  funext a
  apply Fin.ext
  match a with
  | ⟨0, _⟩ => show win0_0.index t 0 * 512 + 1 * p.val = 512 * (g / 4) + p.val; rw [(idx_x t).1]; omega
  | ⟨1, _⟩ => show win0_0.index t 1 * 1024 + 1 * k.val = 1024 * kt + k.val; rw [(idx_x t).2]; omega

theorem wblk_apply (c : Dev nD) (t : Fin cfg0.N) (g kt : ℕ) (hg : g < 128) (hk : kt < 4) (ht : t.val = 4 * g + kt)
    (q : Fin 1024) (k : Fin 1024) :
    wblk m c t (ix2 q k) = Warr m c (ix2 (colG g q) (feat ⟨kt, hk⟩ k)) := by
  unfold wblk Warr iblk
  rw [View.read_apply]
  show V m c main_arg1 _ = V m c main_arg1 _
  congr 1
  funext a
  apply Fin.ext
  match a with
  | ⟨0, _⟩ => show win0_1.index t 0 * 1024 + 1 * q.val = 1024 * (g % 4) + q.val; rw [(idx_w t).1]; omega
  | ⟨1, _⟩ => show win0_1.index t 1 * 1024 + 1 * k.val = 1024 * kt + k.val; rw [(idx_w t).2]; omega

theorem bblk_apply (c : Dev nD) (t : Fin cfg0.N) (g kt : ℕ) (hg : g < 128) (hk : kt < 4) (ht : t.val = 4 * g + kt)
    (q : Fin 1024) :
    bblk m c t (ix1 q) = Barr m c (ix1 (colG g q)) := by
  unfold bblk Barr iblk
  rw [View.read_apply]
  show V m c main_arg2 _ = V m c main_arg2 _
  congr 1
  funext a
  apply Fin.ext
  match a with
  | ⟨0, _⟩ => show win0_2.index t 0 * 1024 + 1 * q.val = 1024 * (g % 4) + q.val; rw [idx_b t]; omega

theorem ablk_apply (c : Dev nD) (t : Fin cfg0.N) (g kt : ℕ) (hg : g < 128) (hk : kt < 4) (ht : t.val = 4 * g + kt)
    (ρ : Fin 8) (k : Fin 1024) :
    ablk m c t (ix2 ρ k) = Aarr m c (ix2 ρ (feat ⟨kt, hk⟩ k)) := by
  unfold ablk Aarr iblk
  rw [View.read_apply]
  show V m c main_arg3 _ = V m c main_arg3 _
  congr 1
  funext a
  apply Fin.ext
  match a with
  | ⟨0, _⟩ => show win0_3.index t 0 * 8 + 1 * ρ.val = ρ.val; rw [(idx_a t).1]; omega
  | ⟨1, _⟩ => show win0_3.index t 1 * 1024 + 1 * k.val = 1024 * kt + k.val; rw [(idx_a t).2]; omega

theorem lblk_apply (c : Dev nD) (t : Fin cfg0.N) (g kt : ℕ) (hg : g < 128) (hk : kt < 4) (ht : t.val = 4 * g + kt)
    (q : Fin 1024) (ρ : Fin 8) :
    lblk m c t (ix2 q ρ) = Larr m c (ix2 (colG g q) ρ) := by
  unfold lblk Larr iblk
  rw [View.read_apply]
  show V m c main_arg4 _ = V m c main_arg4 _
  congr 1
  funext a
  apply Fin.ext
  match a with
  | ⟨0, _⟩ => show win0_4.index t 0 * 1024 + 1 * q.val = 1024 * (g % 4) + q.val; rw [(idx_l t).1]; omega
  | ⟨1, _⟩ => show win0_4.index t 1 * 8 + 1 * ρ.val = ρ.val; rw [(idx_l t).2]; omega

end Cert.KernelIdeal.BlockAt

end
-- ==== Proof.Carried.lean ====
/-
  The two running sums, point by point. Within output block `g` the four points `4 g + kt`, `kt = 0 … 3`, follow one
  another, and after point `4 g + kt` the dense scratch holds, at `(p, q)`, the running sum over tiles `0 … kt` of
  `∑ₖ X (row, feature) · W (column, feature)`, started at zero, and the projection scratch the same with `A` — by
  induction on `kt`: the first point resets and adds tile 0, every later point adds its tile to what the point before
  left. The output block written at the last tile (`kt = 3`) is then the tiled arrangement of the specification.
-/
import proofs.«151045_j44152263803472_1_alg».proof.Proof.PointValue
import proofs.«151045_j44152263803472_1_alg».proof.Proof.PayloadAt
import proofs.«151045_j44152263803472_1_alg».proof.Proof.BlockAt

noncomputable section

open scoped BigOperators
open Idealize.ShloMosaic Idealize.ShloMosaic.TcCoe Idealize.SL.Sem
open Idealize.ShloMosaic.Pipeline (Dat)

namespace Cert.KernelIdeal.Carried

open Cert.KernelIdeal Cert.KernelIdeal.Gen Cert.LoraSpec Idealize.ShloMosaic.ValueIdx
open Cert.KernelIdeal.BlockAt Cert.KernelIdeal.PointValue Cert.KernelIdeal.PayloadAt

variable (m : (ℓ : Loc nD τ sig) → Buf (Elt Ideal) ℓ)

/-- Point `4 g + kt` of the grid. -/
abbrev pt (g kt : ℕ) (hg : g < 128) (hk : kt < 4) : Fin cfg0.N :=
  ⟨4 * g + kt, by rw [show cfg0.N = 512 from N_0]; omega⟩

/-- The contents after a point do not depend on how the point's number is spelled. -/
theorem outsAt_congr (c : Dev nD) {n n' : ℕ} (e : n = n') (h : n < cfg0.N) (h' : n' < cfg0.N) :
    outsAt0 m c n h = outsAt0 m c n' h' := by
  subst e; rfl

/-- One tile of the dense product, from the point's blocks. -/
theorem denseTile_blocks (c : Dev nD) (g kt : ℕ) (hg : g < 128) (hk : kt < 4) (p : Fin 512) (q : Fin 1024) :
    ∑ k : Fin 1024, xblk m c (pt g kt hg hk) (ix2 p k) * wblk m c (pt g kt hg hk) (ix2 q k)
      = denseTile (Xarr m c) (Warr m c) (rowG g hg p) (colG g q) ⟨kt, hk⟩ := by
  unfold denseTile
  refine Finset.sum_congr rfl fun k _ => ?_
  rw [xblk_apply m c (pt g kt hg hk) g kt hg hk rfl p k, wblk_apply m c (pt g kt hg hk) g kt hg hk rfl q k]

/-- One tile of the projection, from the point's blocks. -/
theorem projTile_blocks (c : Dev nD) (g kt : ℕ) (hg : g < 128) (hk : kt < 4) (p : Fin 512) (ρ : Fin 8) :
    ∑ k : Fin 1024, xblk m c (pt g kt hg hk) (ix2 p k) * ablk m c (pt g kt hg hk) (ix2 ρ k)
      = projTile (Xarr m c) (Aarr m c) (rowG g hg p) ρ ⟨kt, hk⟩ := by
  unfold projTile
  refine Finset.sum_congr rfl fun k _ => ?_
  rw [xblk_apply m c (pt g kt hg hk) g kt hg hk rfl p k, ablk_apply m c (pt g kt hg hk) g kt hg hk rfl ρ k]

/-- THE RUNNING SUMS: after point `4 g + kt` both scratches hold the running sums over tiles `0 … kt`. -/
theorem carried (c : Dev nD) (g : ℕ) (hg : g < 128) : ∀ (kt : ℕ) (hk : kt < 4),
    (∀ (p : Fin 512) (q : Fin 1024), (outsAt0 m c (pt g kt hg hk).val (pt g kt hg hk).isLt).2.1 (ix2 p q)
        = runSum (denseTile (Xarr m c) (Warr m c) (rowG g hg p) (colG g q)) kt hk)
    ∧ (∀ (p : Fin 512) (ρ : Fin 8), (outsAt0 m c (pt g kt hg hk).val (pt g kt hg hk).isLt).2.2 (ix2 p ρ)
        = runSum (projTile (Xarr m c) (Aarr m c) (rowG g hg p) ρ) kt hk)
  | 0, hk => by
    have h0 : (pt g 0 hg hk).val % 4 = 0 := by show (4 * g + 0) % 4 = 0; omega
    have h1 : ¬(pt g 0 hg hk).val % 4 = 3 := by show ¬(4 * g + 0) % 4 = 3; omega
    generalize ht : pt g 0 hg hk = t at h0 h1
    constructor
    · intro p q
      rw [outsAt0_A m c t h0 h1]
      dsimp only
      refine (congrFun (accA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xblk m c t) (wblk m c t) (bblk m c t) (ablk m c t) (lblk m c t)) (ix2 p q)).trans ?_
      refine (denseUpdate_apply (xblk m c t) (wblk m c t) (k0_pay1 (F := Ideal)) p q).trans ?_
      rw [zeroAcc_apply, runSum_zero]
      subst ht
      exact congrArg (0 + ·) (denseTile_blocks m c g 0 hg hk p q)
    · intro p ρ
      rw [outsAt0_A m c t h0 h1]
      dsimp only
      refine (congrFun (xaA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xblk m c t) (wblk m c t) (bblk m c t) (ablk m c t) (lblk m c t)) (ix2 p ρ)).trans ?_
      refine (projUpdate_apply (xblk m c t) (ablk m c t) (k0_pay2 (F := Ideal)) p ρ).trans ?_
      rw [zeroXa_apply, runSum_zero]
      subst ht
      exact congrArg (0 + ·) (projTile_blocks m c g 0 hg hk p ρ)
  | kt + 1, hk => by
    obtain ⟨ihD, ihP⟩ := carried c g hg kt (Nat.lt_of_succ_lt hk)
    have h0 : ¬(pt g (kt + 1) hg hk).val % 4 = 0 := by show ¬(4 * g + (kt + 1)) % 4 = 0; omega
    have hprev : (pt g (kt + 1) hg hk).val - 1 = (pt g kt hg (Nat.lt_of_succ_lt hk)).val := by
      show 4 * g + (kt + 1) - 1 = 4 * g + kt; omega
    have eprev := outsAt_congr m c hprev (Nat.lt_of_le_of_lt (Nat.sub_le _ _) (pt g (kt + 1) hg hk).isLt) (pt g kt hg (Nat.lt_of_succ_lt hk)).isLt
    generalize ht : pt g (kt + 1) hg hk = t at h0 eprev
    by_cases h1 : t.val % 4 = 3
    · constructor
      · intro p q
        rw [outsAt0_C m c t h0 h1]
        dsimp only
        refine (congrFun (accC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (bblk m c t) (ablk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
        refine (denseUpdate_apply (xblk m c t) (wblk m c t) _ p q).trans ?_
        rw [eprev, ihD p q, runSum_succ]
        subst ht
        exact congrArg (_ + ·) (denseTile_blocks m c g (kt + 1) hg hk p q)
      · intro p ρ
        rw [outsAt0_C m c t h0 h1]
        dsimp only
        refine (congrFun (xaC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (bblk m c t) (ablk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p ρ)).trans ?_
        refine (projUpdate_apply (xblk m c t) (ablk m c t) _ p ρ).trans ?_
        rw [eprev, ihP p ρ, runSum_succ]
        subst ht
        exact congrArg (_ + ·) (projTile_blocks m c g (kt + 1) hg hk p ρ)
    · constructor
      · intro p q
        rw [outsAt0_B m c t h0 h1]
        dsimp only
        refine (congrFun (accB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xblk m c t) (wblk m c t) (bblk m c t) (ablk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
        refine (denseUpdate_apply (xblk m c t) (wblk m c t) _ p q).trans ?_
        rw [eprev, ihD p q, runSum_succ]
        subst ht
        exact congrArg (_ + ·) (denseTile_blocks m c g (kt + 1) hg hk p q)
      · intro p ρ
        rw [outsAt0_B m c t h0 h1]
        dsimp only
        refine (congrFun (xaB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xblk m c t) (wblk m c t) (bblk m c t) (ablk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p ρ)).trans ?_
        refine (projUpdate_apply (xblk m c t) (ablk m c t) _ p ρ).trans ?_
        rw [eprev, ihP p ρ, runSum_succ]
        subst ht
        exact congrArg (_ + ·) (projTile_blocks m c g (kt + 1) hg hk p ρ)

/-- One more tile added to a dense scratch that holds the running sum over the tiles before it. -/
theorem denseStep (c : Dev nD) (g kt : ℕ) (hg : g < 128) (hk : kt + 1 < 4) (acc : Vec Ideal S512x1024 .f32)
    (p : Fin 512) (q : Fin 1024)
    (hacc : acc (ix2 p q) = runSum (denseTile (Xarr m c) (Warr m c) (rowG g hg p) (colG g q)) kt (Nat.lt_of_succ_lt hk)) :
    k0_pay4 (F := Ideal) (xblk m c (pt g (kt + 1) hg hk)) (wblk m c (pt g (kt + 1) hg hk)) acc (ix2 p q)
      = runSum (denseTile (Xarr m c) (Warr m c) (rowG g hg p) (colG g q)) (kt + 1) hk := by
  refine (denseUpdate_apply (xblk m c (pt g (kt + 1) hg hk)) (wblk m c (pt g (kt + 1) hg hk)) acc p q).trans ?_
  rw [hacc, runSum_succ]
  exact congrArg (_ + ·) (denseTile_blocks m c g (kt + 1) hg hk p q)

/-- One more tile added to a projection scratch that holds the running sum over the tiles before it. -/
theorem projStep (c : Dev nD) (g kt : ℕ) (hg : g < 128) (hk : kt + 1 < 4) (xa : Vec Ideal S512x8 .f32)
    (p : Fin 512) (ρ : Fin 8)
    (hxa : xa (ix2 p ρ) = runSum (projTile (Xarr m c) (Aarr m c) (rowG g hg p) ρ) kt (Nat.lt_of_succ_lt hk)) :
    k0_pay5 (F := Ideal) (xblk m c (pt g (kt + 1) hg hk)) (ablk m c (pt g (kt + 1) hg hk)) xa (ix2 p ρ)
      = runSum (projTile (Xarr m c) (Aarr m c) (rowG g hg p) ρ) (kt + 1) hk := by
  refine (projUpdate_apply (xblk m c (pt g (kt + 1) hg hk)) (ablk m c (pt g (kt + 1) hg hk)) xa p ρ).trans ?_
  rw [hxa, runSum_succ]
  exact congrArg (_ + ·) (projTile_blocks m c g (kt + 1) hg hk p ρ)

/-- THE OUTPUT BLOCK: what the last tile's point leaves in the output's buffer is, entry by entry, the tiled
    arrangement of the specification at the block's rows and columns. -/
theorem outBlock (c : Dev nD) (g : ℕ) (hg : g < 128) (h3 : 2 + 1 < 4) (p : Fin 512) (q : Fin 1024) :
    (outsAt0 m c (pt g (2 + 1) hg h3).val (pt g (2 + 1) hg h3).isLt).1 (ix2 p q)
      = tiled2 (Xarr m c) (Warr m c) (Barr m c) (Aarr m c) (Larr m c) (ix2 (rowG g hg p) (colG g q)) := by
  obtain ⟨ihD, ihP⟩ := carried m c g hg 2 (Nat.lt_of_succ_lt h3)
  have h0 : ¬(pt g (2 + 1) hg h3).val % 4 = 0 := by show ¬(4 * g + (2 + 1)) % 4 = 0; omega
  have h1 : (pt g (2 + 1) hg h3).val % 4 = 3 := by show (4 * g + (2 + 1)) % 4 = 3; omega
  have hprev : (pt g (2 + 1) hg h3).val - 1 = (pt g 2 hg (Nat.lt_of_succ_lt h3)).val := by
    show 4 * g + (2 + 1) - 1 = 4 * g + 2; omega
  have eprev := outsAt_congr m c hprev (Nat.lt_of_le_of_lt (Nat.sub_le _ _) (pt g (2 + 1) hg h3).isLt) (pt g 2 hg (Nat.lt_of_succ_lt h3)).isLt
  generalize ht : pt g (2 + 1) hg h3 = t at h0 h1 eprev
  rw [outsAt0_C m c t h0 h1]
  dsimp only
  refine (congrFun (outC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (bblk m c t) (ablk m c t) (lblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
  refine (output_apply (lblk m c t) _ (bblk m c t) _ p q).trans ?_
  rw [eprev]
  subst ht
  rw [denseStep m c g 2 hg h3 _ p q (ihD p q)]
  simp only [projStep m c g 2 hg h3 _ p _ (ihP p _), lblk_apply m c (pt g (2 + 1) hg h3) g (2 + 1) hg h3 rfl q,
    bblk_apply m c (pt g (2 + 1) hg h3) g (2 + 1) hg h3 rfl q]
  rfl

end Cert.KernelIdeal.Carried

end
-- ==== Proof.Result.lean ====
/-
  The kernel program's result. The region's output array is written back one block per output block `g`, at the
  point of the last input tile, and those 128 blocks tile the [16384, 4096] array: so after the run it holds the tiled
  arrangement of the specification over the arrays the region found — the activations flattened to [16384, 4096] by
  the host's reshape before the region, the other four arguments untouched. The host's reshape after the region
  lays that array out as [4, 4096, 4096], which is the program's result.
-/
import proofs.«151045_j44152263803472_1_alg».proof.Proof.Carried
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.LoraSpec Idealize.ShloMosaic.ValueIdx
open Cert.KernelIdeal.BlockAt Cert.KernelIdeal.Carried

variable (m : (ℓ : Loc nD τ sig) → Buf (Elt Ideal) ℓ) (ρ : Dev nD → PrngReg)

/-- The region's output array after the run: the tiled arrangement over the arrays as the region finds them. -/
abbrev regionOut (c : Dev nD) : Vec Ideal S16384x4096 .f32 :=
  tiled2 (Xarr m c) (Warr m c) (Barr m c) (Aarr m c) (Larr m c)

/-- Where the output block of the last-tile point of output block `g` sits in the array. -/
theorem emb_out (g : ℕ) (hg : g < 128) (h3 : 2 + 1 < 4) (p : Fin 512) (q : Fin 1024) :
    ((cfg0.win 5).blk (pt g (2 + 1) hg h3)).view.emb (ix2 p q) = ix2 (rowG g hg p) (colG g q) := by
  funext a
  apply Fin.ext
  match a with
  | ⟨0, _⟩ =>
    show win0_5.index (pt g (2 + 1) hg h3) 0 * 512 + 1 * p.val = 512 * (g / 4) + p.val
    rw [(idx_o (pt g (2 + 1) hg h3)).1]
    show (4 * g + (2 + 1)) / 16 * 512 + 1 * p.val = 512 * (g / 4) + p.val
    omega
  | ⟨1, _⟩ =>
    show win0_5.index (pt g (2 + 1) hg h3) 1 * 1024 + 1 * q.val = 1024 * (g % 4) + q.val
    rw [(idx_o (pt g (2 + 1) hg h3)).2]
    show (4 * g + (2 + 1)) / 4 % 4 * 1024 + 1 * q.val = 1024 * (g % 4) + q.val
    omega

/-- What a writing point writes back is its block of `regionOut`. -/
theorem flushed_eq (c : Dev nD) (t : Fin cfg0.N) (hf : (cfg0.win 5).flush t = true) :
    (dats m 0 c).flushed 5 t = ((cfg0.win 5).blk t).view.read (Elt Ideal) (regionOut m c) := by
  have h3 : 2 + 1 < 4 := by decide
  have hm : t.val % 4 = 3 := (flush0_5 t).mp hf
  have hN : t.val < 512 := lt_of_lt_of_eq t.isLt (show cfg0.N = 512 from N_0)
  obtain ⟨g, hg, rfl⟩ : ∃ (g : ℕ) (hg : g < 128), t = pt g (2 + 1) hg h3 :=
    ⟨t.val / 4, by omega, Fin.ext (by show t.val = 4 * (t.val / 4) + (2 + 1); omega)⟩
  show (cfg0.win 5).cut (grid0.coords (pt g (2 + 1) hg h3)) ((dats m 0 c).after 5 (pt g (2 + 1) hg h3)) = _
  rw [after0_5]
  funext j
  obtain ⟨p, q, rfl⟩ : ∃ (p : Fin 512) (q : Fin 1024), j = ix2 p q := ⟨j 0, j 1, eq_ix2 j⟩
  rw [View.read_apply, emb_out g hg h3 p q]
  exact outBlock m c g hg h3 p q

/-- An entry of the array is in point `t`'s block iff each coordinate is in the block's range on its axis. -/
theorem mem_blk (t : Fin cfg0.N) (i : S16384x4096.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v1).slice (win0_5.rect t)).set ↔ _
  rw [View.set_slice_whole, Rect.mem_set_unit]
  exact Iff.rfl

/-- Every entry of the array is written: entry `(r, o)` by the last-tile point of output block `4 (r / 512) + o / 1024`. -/
theorem cover (i : S16384x4096.Idx) : ∃ t : Fin cfg0.N, (cfg0.win 5).flush t = true ∧ i ∈ ((cfg0.win 5).blk t).view.set := by
  have hi0 : (i 0).val < 16384 := (i 0).isLt
  have hi1 : (i 1).val < 4096 := (i 1).isLt
  have hg : 4 * ((i 0).val / 512) + (i 1).val / 1024 < 128 := by omega
  have h3 : 2 + 1 < 4 := by decide
  refine ⟨pt (4 * ((i 0).val / 512) + (i 1).val / 1024) (2 + 1) hg h3, (flush0_5 _).mpr (by
    show (4 * (4 * ((i 0).val / 512) + (i 1).val / 1024) + (2 + 1)) % 4 = 3; omega), ?_⟩
  rw [mem_blk]
  intro a
  match a with
  | ⟨0, _⟩ =>
    show win0_5.index (pt _ (2 + 1) hg h3) (0 : Fin 2) * 512 ≤ (i 0).val ∧ (i 0).val < win0_5.index (pt _ (2 + 1) hg h3) (0 : Fin 2) * 512 + 512
    rw [(idx_o (pt _ (2 + 1) hg h3)).1]
    show (4 * (4 * ((i 0).val / 512) + (i 1).val / 1024) + (2 + 1)) / 16 * 512 ≤ (i 0).val ∧ (i 0).val < (4 * (4 * ((i 0).val / 512) + (i 1).val / 1024) + (2 + 1)) / 16 * 512 + 512
    omega
  | ⟨1, _⟩ =>
    show win0_5.index (pt _ (2 + 1) hg h3) (1 : Fin 2) * 1024 ≤ (i 1).val ∧ (i 1).val < win0_5.index (pt _ (2 + 1) hg h3) (1 : Fin 2) * 1024 + 1024
    rw [(idx_o (pt _ (2 + 1) hg h3)).2]
    show (4 * (4 * ((i 0).val / 512) + (i 1).val / 1024) + (2 + 1)) / 4 % 4 * 1024 ≤ (i 1).val ∧ (i 1).val < (4 * (4 * ((i 0).val / 512) + (i 1).val / 1024) + (2 + 1)) / 4 % 4 * 1024 + 1024
    omega

/-- The region's output array after the run. -/
theorem final (c : Dev nD) : (dats m 0 c).arrAt 5 cfg0.N = regionOut m c :=
  (dats m 0 c).arrAt_eq_of_cover 5 (regionOut m c) (flushed_eq m c) cover

/-- The activations as the region finds them: the host's reshape of the first argument to [16384, 4096]. -/
theorem Xarr_eq (c : Dev nD) :
    Xarr m c = shapeCast S16384x4096 (m ((c : Thread nD τ).loc main_arg0)) shapeCasts_S4x4096x4096_S16384x4096 := by
  show StableHlo.after hostOps0 (fun b => m (c, b)) (Proc.devRef .tc main_v0) = _
  after_results
  rfl

/-- The program's result: the host's reshape of the region's output array to [4, 4096, 4096]. -/
theorem tail_eq (c : Dev nD) :
    Pipeline.afterTail₀ cfgs (dats m) 0 (V0 m) [hostOps1] c main_v2
      = shapeCast S4x4096x4096 (regionOut m c) shapeCasts_S16384x4096_S4x4096x4096 := by
  unfold Pipeline.afterTail₀
  show StableHlo.after hostOps1 _ (Proc.devRef .tc main_v2) = _
  after_results
  exact congrArg (fun y => shapeCast S4x4096x4096 y shapeCasts_S16384x4096_S4x4096x4096)
    ((Pipeline.withArrays_arr spec0 launch0.win.arr_inj c _ _ 5).trans (final m c))

/-- The program's result as a function of its five arguments. -/
abbrev result (c : Dev nD) : Buf (Elt Ideal) ((c.tc : Thread nD τ).loc main_v2) :=
  shapeCast S4x4096x4096
    (tiled2 (shapeCast S16384x4096 (m ((c : Thread nD τ).loc main_arg0)) shapeCasts_S4x4096x4096_S16384x4096)
      (m ((c : Thread nD τ).loc main_arg1)) (m ((c : Thread nD τ).loc main_arg2))
      (m ((c : Thread nD τ).loc main_arg3)) (m ((c : Thread nD τ).loc main_arg4)))
    shapeCasts_S16384x4096_S4x4096x4096

theorem regionOut_eq (c : Dev nD) :
    regionOut m c = tiled2 (shapeCast S16384x4096 (m ((c : Thread nD τ).loc main_arg0)) shapeCasts_S4x4096x4096_S16384x4096)
      (m ((c : Thread nD τ).loc main_arg1)) (m ((c : Thread nD τ).loc main_arg2))
      (m ((c : Thread nD τ).loc main_arg3)) (m ((c : Thread nD τ).loc main_arg4)) := by
  unfold regionOut
  rw [Xarr_eq m c]
  show tiled2 _ (V m c main_arg1) (V m c main_arg2) (V m c main_arg3) (V m c main_arg4) = _
  rw [V_main_arg1, V_main_arg2, V_main_arg3, V_main_arg4]

/-- THE RUN, READ: every weakly fair execution terminates with the result array at `result` and the five arguments
    unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans
        ((tail_eq m c).trans (congrArg (fun y => shapeCast S4x4096x4096 y shapeCasts_S16384x4096_S4x4096x4096) (regionOut_eq m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Result

end
-- ==== Proof.RefValue.lean ====
/-
  The reference program, read index by index: its result at batch `bt`, position `s`, output feature `o` is the plain
  arrangement of the specification — the dense contraction plus the bias, plus the two-step low-rank contraction times
  the unit scale. Each host operation is read at an index by the generated read lemmas; what is written here is only
  that the index functions they compose are the coordinates themselves.
-/
import proofs.«151045_j44152263803472_1_alg».proof.Defs
import proofs.«151045_j44152263803472_1_alg».proof.Proof.Gen.ReferenceIdeal.Run
import proofs.«151045_j44152263803472_1_alg».proof.Proof.Gen.ReferenceIdeal.Read
import proofs.«151045_j44152263803472_1_alg».proof.Proof.Spec

noncomputable section

open Idealize.ShloMosaic Idealize.ShloMosaic.TcCoe Idealize.SL.Sem

namespace Cert.ReferenceIdeal.RefValue

open Cert.ReferenceIdeal Cert.ReferenceIdeal.Read Cert.LoraSpec Idealize.ShloMosaic.ValueIdx

/-- The reference's result array is the plain arrangement of the five arguments. -/
theorem result_eq (x : SX3.Idx → EReal) (W : SW.Idx → EReal) (b : SB.Idx → EReal) (A : SA.Idx → EReal) (L : SL.Idx → EReal) :
    val_main_v8 (F := Ideal) x W b A L = layer3 x W b A L := by
  funext i
  have el0 : ∀ k, lidx_main_v0 i k = ix3 (i 0) (i 1) k := fun k => funext fun a => by
    match a with | ⟨0, _⟩ => rfl | ⟨1, _⟩ => rfl | ⟨2, _⟩ => rfl
  have er0 : ∀ k, ridx_main_v0 i k = ix2 (i 2) k := fun k => funext fun a => by
    match a with | ⟨0, _⟩ => rfl | ⟨1, _⟩ => rfl
  have eb : idx_main_v1 (idx_main_v2 i) = ix1 (i 2) := funext fun a => by
    match a with | ⟨0, _⟩ => rfl
  have el4 : ∀ (ρ : Fin 8) k, lidx_main_v4 (lidx_main_v5 i ρ) k = ix3 (i 0) (i 1) k := fun ρ k => funext fun a => by
    match a with | ⟨0, _⟩ => rfl | ⟨1, _⟩ => rfl | ⟨2, _⟩ => rfl
  have er4 : ∀ (ρ : Fin 8) k, ridx_main_v4 (lidx_main_v5 i ρ) k = ix2 ρ k := fun ρ k => funext fun a => by
    match a with | ⟨0, _⟩ => rfl | ⟨1, _⟩ => rfl
  have er5 : ∀ (ρ : Fin 8), ridx_main_v5 i ρ = ix2 (i 2) ρ := fun ρ => funext fun a => by
    match a with | ⟨0, _⟩ => rfl | ⟨1, _⟩ => rfl
  rw [val_main_v8_apply, val_main_v3_apply, val_main_v0_apply, val_main_v2_apply, val_main_v1_apply, val_main_v7_apply,
    val_main_v5_apply, val_main_v6_apply, val_main_cst_apply]
  simp only [val_main_v4_apply, el0, er0, eb, el4, er4, er5, Ideal.addf_def, Ideal.mulf_def, layer3]
  rfl

end Cert.ReferenceIdeal.RefValue

end
-- ==== Proof.lean ====
/-
  A linear layer with a rank-8 correction: `x · Wᵀ + b + 1 · (x · Aᵀ) · Lᵀ` over activations [4, 4096, 4096].

  One program flattens the activations to [16384, 4096] and walks a 32 × 4 × 4 grid (row blocks of 512, output-feature
  blocks of 1024, input tiles of 1024, the input tile fastest). It keeps two running sums in scratch memory — the dense
  product's and the projection onto the 8 directions — set to zero at the first input tile and increased by one tile's
  contraction at every point; at the last input tile it forms `(dense + (proj · Lᵀ) · 1) + b` and writes the output
  block; the result is reshaped back to [4, 4096, 4096]. The other program computes
  `(x · Wᵀ + b) + ((x · Aᵀ) · Lᵀ) · 1` in one piece.

  Over the extended reals the two results are equal entry by entry: a contraction over 4096 features is the sum of its
  four tiles' contractions, a running sum started at zero is that sum, and the bias and the low-rank term are added in
  the other order. Only associativity and commutativity of addition are used, so the inputs' finiteness is not needed.
  The narrowing of operands to bf16 before each product is the identity on exact values, and the idealization rewrote
  nothing, so its sanction is trivial.

  The modules: Spec (both arrangements and their agreement), Flatten (the reshapes), PayloadAt (the body's arithmetic at
  an entry), PointValue (what a point leaves behind), BlockAt (which entries of the arrays a point's blocks hold),
  Carried (the running sums, by induction inside an output block; the output block), Result (the array after the
  run, the reshapes around the grid), RefValue (the one-piece program read entry by entry).
-/
import proofs.«151045_j44152263803472_1_alg».proof.Defs
import proofs.«151045_j44152263803472_1_alg».proof.Proof.Gen.Kernel
import proofs.«151045_j44152263803472_1_alg».proof.Proof.Gen.Kernel.Skeleton
import proofs.«151045_j44152263803472_1_alg».proof.Proof.Gen.Kernel.Launch
import proofs.«151045_j44152263803472_1_alg».proof.Proof.Gen.Kernel.Points
import proofs.«151045_j44152263803472_1_alg».proof.Proof.Gen.Kernel.Frame
import proofs.«151045_j44152263803472_1_alg».proof.Proof.Gen.KernelIdeal
import proofs.«151045_j44152263803472_1_alg».proof.Proof.Gen.KernelIdeal.Skeleton
import proofs.«151045_j44152263803472_1_alg».proof.Proof.Gen.KernelIdeal.Launch
import proofs.«151045_j44152263803472_1_alg».proof.Proof.Gen.KernelIdeal.Points
import proofs.«151045_j44152263803472_1_alg».proof.Proof.Gen.KernelIdeal.Frame
import proofs.«151045_j44152263803472_1_alg».proof.Proof.Gen.ReferenceIdeal
import proofs.«151045_j44152263803472_1_alg».proof.Proof.Gen.ReferenceIdeal.Run
import proofs.«151045_j44152263803472_1_alg».proof.Proof.Gen.ReferenceIdeal.Read
import proofs.«151045_j44152263803472_1_alg».proof.Proof.Gen.Pre_finite_inputs
import proofs.«151045_j44152263803472_1_alg».proof.Proof.Flatten
import proofs.«151045_j44152263803472_1_alg».proof.Proof.Result
import proofs.«151045_j44152263803472_1_alg».proof.Proof.RefValue
import Idealize.ShloMosaic.Adequacy
import Idealize.ShloMosaic.Init

noncomputable section

namespace Cert.Proof

open Idealize.ShloMosaic Idealize.SL.Sem

/-- The grid program runs and keeps its arguments (word level). -/
theorem frame_k : Cert.frame_Kernel (hKernel := Cert.Kernel.Gen.facts) (hPre_finite_inputs := Cert.Pre_finite_inputs.Gen.facts) :=
  fun m ρ _ => Cert.Kernel.Gen.frame m ρ

/-- The grid program runs and keeps its arguments (exact values). -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The one-piece program runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the five arguments both programs end with the plain arrangement of those arguments:
    the one-piece program by reading it entry by entry, the grid program because its tiled arrangement over the
    flattened activations, unflattened, is the plain one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2]
  exact (Cert.LoraSpec.unflatten_tiled2 _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
